-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v56)) (v1 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_v57) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x128x128 : Shape := ⟨3, ![2, 128, 128]⟩
abbrev S2x128 : Shape := ⟨2, ![2, 128]⟩
abbrev S2x1600000 : Shape := ⟨2, ![2, 1600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_

variable [Facts]

def fn_part1 {F : FTy → Type} [FloatOps F] (main_arg4 : FVec F S2x128x128 .f32) (main_v13 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v13 main_v17
  let main_v19 : FVec F S2x128x128 .f32 := Host.absf main_arg4
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  main_v23

def fn {F : FTy → Type} [FloatOps F] (main_arg0 : FVec F S50000x128 .f32) (main_arg1 : FVec F S50000x128 .f32) (main_arg2 : FVec F S2x128x128 .f32) (main_arg3 : FVec F S2x128 .f32) (main_arg4 : FVec F S2x128x128 .f32) (main_arg5 : IVec S2x1600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S2x128x128 .f32 := Host.absf main_arg2
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_c_3 : IVec S_ 1 := constantI S_ 1 1#1
  let main_v12 : IVec S_ 1 := (fun x v => Host.reduce IntOp.andi x v reducesTo_S2x128x128_S_d0_1_2 h_S_) main_v11 main_c_3
  let main_v13 : IVec S_ 1 := andi main_v8 main_v12
  let main_v14 : FVec F S2x128 .f32 := Host.absf main_arg3
  let main_cst_4 : FVec F S_ .f32 := constant S_ .f32 0x7F800000#32
  let main_v15 : FVec F S2x128 .f32 := broadcastInDim S2x128 ![] bcast_S_S2x128 main_cst_4
  let main_v16 : IVec S2x128 1 := cmpf .olt main_v14 main_v15
  fn_part1 (F := F) main_arg4 main_v13 main_v16
-- ==== Kernel.lean ====
abbrev S50000x128 : Shape := ⟨2, ![50000, 128]⟩
abbrev S2x128x128 : Shape := ⟨3, ![2, 128, 128]⟩
abbrev S2x128 : Shape := ⟨2, ![2, 128]⟩
abbrev S2x1600000 : Shape := ⟨2, ![2, 1600000]⟩
abbrev S100000x128 : Shape := ⟨2, ![100000, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩

abbrev nBuf : Space → Nat
  | .hbm => 74
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S2x128x128, .f32⟩
  | .hbm, ⟨3, _⟩ => ⟨S2x128, .f32⟩
  | .hbm, ⟨4, _⟩ => ⟨S2x128x128, .f32⟩
  | .hbm, ⟨5, _⟩ => ⟨S2x1600000, .i32⟩
  | .hbm, ⟨6, _⟩ => ⟨S100000x128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S2x128x128, .f32⟩
  | .hbm, ⟨25, _⟩ => ⟨S2x128x128, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S1x128x128, .f32⟩
  | .hbm, ⟨42, _⟩ => ⟨S128x128, .f32⟩
  | .hbm, ⟨43, _⟩ => ⟨S1x128x128, .f32⟩
  | .hbm, ⟨44, _⟩ => ⟨S128x128, .f32⟩
  | .hbm, ⟨45, _⟩ => ⟨S1x128, .f32⟩
  | .hbm, ⟨46, _⟩ => ⟨S128, .f32⟩
  | .hbm, ⟨47, _⟩ => ⟨S1x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S1x128x128, .f32⟩
  | .hbm, ⟨65, _⟩ => ⟨S128x128, .f32⟩
  | .hbm, ⟨66, _⟩ => ⟨S1x128x128, .f32⟩
  | .hbm, ⟨67, _⟩ => ⟨S128x128, .f32⟩
  | .hbm, ⟨68, _⟩ => ⟨S1x128, .f32⟩
  | .hbm, ⟨69, _⟩ => ⟨S128, .f32⟩
  | .hbm, ⟨70, _⟩ => ⟨S1x128, .f32⟩
  | .hbm, ⟨71, _⟩ => ⟨S100000x128, .f32⟩
  | .hbm, ⟨72, _⟩ => ⟨S50000x128, .f32⟩
  | .hbm, ⟨73, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_5 : Ref sig .tc := ⟨.hbm, 49, rfl⟩
abbrev main_v36 : Ref sig .tc := ⟨.hbm, 50, rfl⟩
abbrev main_v37 : Ref sig .tc := ⟨.hbm, 51, rfl⟩
abbrev main_c_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  concatenates_S50000x128_S50000x128_S100000x128_d0 : Shape.Concatenates [S50000x128, S50000x128] S100000x128 0
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  transposes_S2x128x128_S2x128x128_0_2_1 : S2x128x128.Transposes [0, 2, 1] S2x128x128
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x128x128_S1x128x128_1_0_0 : S2x128x128.Slices ![1, 0, 0] S1x128x128
  slices_S2x128_S1x128_1_0 : S2x128.Slices ![1, 0] S1x128
  slices_S100000x128_S50000x128_0_0 : S100000x128.Slices ![0, 0] S50000x128
  slices_S100000x128_S50000x128_50000_0 : S100000x128.Slices ![50000, 0] S50000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v27) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v55) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x128x128 : Shape := ⟨3, ![2, 128, 128]⟩
abbrev S2x128 : Shape := ⟨2, ![2, 128]⟩
abbrev S2x1600000 : Shape := ⟨2, ![2, 1600000]⟩
abbrev S100000x128 : Shape := ⟨2, ![100000, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 91
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S2x128x128, .f32⟩
  | .hbm, ⟨3, _⟩ => ⟨S2x128, .f32⟩
  | .hbm, ⟨4, _⟩ => ⟨S2x128x128, .f32⟩
  | .hbm, ⟨5, _⟩ => ⟨S2x1600000, .i32⟩
  | .hbm, ⟨6, _⟩ => ⟨S100000x128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .f32⟩
  | .hbm, ⟨32, _⟩ => ⟨S_, .f32⟩
  | .hbm, ⟨33, _⟩ => ⟨S100000x128, .f32⟩
  | .hbm, ⟨34, _⟩ => ⟨S1600000x1, .i32⟩
  | .hbm, ⟨35, _⟩ => ⟨S100000x128, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S1x128x128, .f32⟩
  | .hbm, ⟨40, _⟩ => ⟨S128x128, .f32⟩
  | .hbm, ⟨41, _⟩ => ⟨S128x128, .f32⟩
  | .hbm, ⟨42, _⟩ => ⟨S100000x128, .f32⟩
  | .hbm, ⟨43, _⟩ => ⟨S1x128, .f32⟩
  | .hbm, ⟨44, _⟩ => ⟨S128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S1x128x128, .f32⟩
  | .hbm, ⟨49, _⟩ => ⟨S128x128, .f32⟩
  | .hbm, ⟨50, _⟩ => ⟨S128x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S1x128x128, .f32⟩
  | .hbm, ⟨73, _⟩ => ⟨S128x128, .f32⟩
  | .hbm, ⟨74, _⟩ => ⟨S128x128, .f32⟩
  | .hbm, ⟨75, _⟩ => ⟨S100000x128, .f32⟩
  | .hbm, ⟨76, _⟩ => ⟨S1x128, .f32⟩
  | .hbm, ⟨77, _⟩ => ⟨S128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S1x128x128, .f32⟩
  | .hbm, ⟨82, _⟩ => ⟨S128x128, .f32⟩
  | .hbm, ⟨83, _⟩ => ⟨S128x128, .f32⟩
  | .hbm, ⟨84, _⟩ => ⟨S100000x128, .f32⟩
  | .hbm, ⟨85, _⟩ => ⟨S100000x128, .f32⟩
  | .hbm, ⟨86, _⟩ => ⟨S_, .f32⟩
  | .hbm, ⟨87, _⟩ => ⟨S100000x128, .f32⟩
  | .hbm, ⟨88, _⟩ => ⟨S100000x128, .f32⟩
  | .hbm, ⟨89, _⟩ => ⟨S50000x128, .f32⟩
  | .hbm, ⟨90, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_call0_cst : Ref sig .tc := ⟨.hbm, 53, rfl⟩
abbrev main_call0_v0 : Ref sig .tc := ⟨.hbm, 54, rfl⟩
abbrev main_v40 : Ref sig .tc := ⟨.hbm, 55, rfl⟩
abbrev main_c_5 : Ref sig .tc := ⟨.hbm, 56, rfl⟩
abbrev main_v41 : Ref sig .tc := ⟨.hbm, 57, rfl⟩
abbrev main_v42 : Ref sig .tc := ⟨.hbm, 58, rfl⟩
abbrev main_c_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_call1_cst : Ref sig .tc := ⟨.hbm, 86, rfl⟩
abbrev main_call1_v0 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩

abbrev nD : Nat := 1
abbrev τ : Topo := Topo.v7x

variable {F : FTy → Type} [FloatOps F]

class Facts₀ : Prop where
  concatenates_S50000x128_S50000x128_S100000x128_d0 : Shape.Concatenates [S50000x128, S50000x128] S100000x128 0
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S2x128x128_S1x128x128_0_0_0 : S2x128x128.Slices ![0, 0, 0] S1x128x128
  shapeCasts_S1x128x128_S128x128 : S1x128x128.ShapeCasts S128x128
  transposes_S128x128_S128x128_1_0 : S128x128.Transposes [1, 0] S128x128
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x128x128_S1x128x128_1_0_0 : S2x128x128.Slices ![1, 0, 0] S1x128x128
  slices_S2x128_S1x128_1_0 : S2x128.Slices ![1, 0] S1x128
  slices_S100000x128_S50000x128_0_0 : S100000x128.Slices ![0, 0] S50000x128
  slices_S100000x128_S50000x128_50000_0 : S100000x128.Slices ![50000, 0] S50000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The mathematics both programs compute, stated once over plain index functions.

  One layer of the network sends node features `X` (one row of 128 numbers per node) and the neighbourhood means
  `A` (same layout) to `max (A · Wl + X · Wr + b, 0)`: entry `(p, q)` is the sum over `k` of `A p k * Wl k q`, plus the
  sum over `k` of `X p k * Wr k q`, plus `b q`, clipped below at zero.  Row `p` of the result reads only row `p` of
  `A` and of `X`, so a block of rows of the result is the same formula on the matching block of rows.
  The weights arrive as `[2, 128, 128]` arrays holding, for layer `l`, the matrix whose `(c, k)` entry multiplies input
  column `k` into output column `c`; the matrix the product uses is its transpose, `wT W l`.
-/
import Idealize.ShloMosaic.Lib.ValueIdx
import Idealize.ShloMosaic.PureOps.Ideal
import Mathlib.Algebra.BigOperators.Fin

noncomputable section

namespace Cert.Sage

open Idealize.ShloMosaic Idealize.ShloMosaic.ValueIdx

/-- Entry `(p, q)` of one layer's output: two products with 128 columns contracted, the bias, the clip at zero. -/
def layerAt {M : ℕ} (A X : Fin M → Fin 128 → EReal) (Wl Wr : Fin 128 → Fin 128 → EReal) (b : Fin 128 → EReal)
    (p : Fin M) (q : Fin 128) : EReal :=
  max ((∑ k : Fin 128, A p k * Wl k q) + (∑ k : Fin 128, X p k * Wr k q) + b q) 0

/-- The same entry with the bias added before the second product: addition of extended reals is commutative and
    associative, so the order of the three summands does not matter. -/
theorem layerAt_bias_first {M : ℕ} (A X : Fin M → Fin 128 → EReal) (Wl Wr : Fin 128 → Fin 128 → EReal) (b : Fin 128 → EReal)
    (p : Fin M) (q : Fin 128) :
    max ((∑ k : Fin 128, A p k * Wl k q) + b q + (∑ k : Fin 128, X p k * Wr k q)) 0 = layerAt A X Wl Wr b p q := by
  unfold layerAt
  rw [add_right_comm]

/-- An entry depends on one row of each of `A` and `X`: two pairs of arrays whose rows `p` and `p'` agree give the same
    entry there (the arrays may have different numbers of rows: a block of rows against the whole array). -/
theorem layerAt_congr_rows {M M' : ℕ} (A X : Fin M → Fin 128 → EReal) (A' X' : Fin M' → Fin 128 → EReal)
    (Wl Wr : Fin 128 → Fin 128 → EReal) (b : Fin 128 → EReal) (p : Fin M) (p' : Fin M') (q : Fin 128)
    (hA : ∀ k, A p k = A' p' k) (hX : ∀ k, X p k = X' p' k) :
    layerAt A X Wl Wr b p q = layerAt A' X' Wl Wr b p' q := by
  unfold layerAt
  simp only [hA, hX]

/-- A two-axis array as a function of its two coordinates. -/
abbrev curry2 {n0 n1 : ℕ} (v : (⟨2, ![n0, n1]⟩ : Shape).Idx → EReal) : Fin n0 → Fin n1 → EReal := fun a b => v (ix2 a b)

/-- One layer on arrays: `A`, `X` of `M` rows, the two `128 × 128` matrices as the product reads them (`(k, q)` entry
    multiplies input column `k` into output column `q`), the bias as a one-row array. -/
def layerArr {M : ℕ} (A X : (⟨2, ![M, 128]⟩ : Shape).Idx → EReal) (Wl Wr : (⟨2, ![128, 128]⟩ : Shape).Idx → EReal)
    (b : (⟨2, ![1, 128]⟩ : Shape).Idx → EReal) : (⟨2, ![M, 128]⟩ : Shape).Idx → EReal :=
  fun i => layerAt (curry2 A) (curry2 X) (curry2 Wl) (curry2 Wr) (fun q => b (ix2 0 q)) (i 0) (i 1)

theorem layerArr_apply {M : ℕ} (A X : (⟨2, ![M, 128]⟩ : Shape).Idx → EReal) (Wl Wr : (⟨2, ![128, 128]⟩ : Shape).Idx → EReal)
    (b : (⟨2, ![1, 128]⟩ : Shape).Idx → EReal) (p : Fin M) (q : Fin 128) :
    layerArr A X Wl Wr b (ix2 p q) = layerAt (curry2 A) (curry2 X) (curry2 Wl) (curry2 Wr) (fun q => b (ix2 0 q)) p q := rfl

/-- Layer `l`'s matrix as the product reads it: the transpose of slab `l` of the `[2, 128, 128]` weights. -/
def wT (W : (⟨3, ![2, 128, 128]⟩ : Shape).Idx → EReal) (l : Fin 2) : (⟨2, ![128, 128]⟩ : Shape).Idx → EReal :=
  fun i => W (ix3 l (i 1) (i 0))

/-- Layer `l`'s bias as a one-row array. -/
def bRow (B : (⟨2, ![2, 128]⟩ : Shape).Idx → EReal) (l : Fin 2) : (⟨2, ![1, 128]⟩ : Shape).Idx → EReal :=
  fun i => B (ix2 l (i 1))

end Cert.Sage

end
-- ==== Proof.KernelHost.lean ====
/-
  What the kernel program's host operations leave in the buffers its two regions read, and in its two results.

  @main is five stretches: host operations, region 0, host operations, region 1, two slices.  The contents of the
  buffers at the four boundaries between them are folds through the operations (`W1` … `W5`).  Here each buffer a
  region reads, and each result, is read out of its fold:
  * the concatenated node features and the degree-normalised neighbourhood sums are, operation for operation, the
    reference's own stages of the same launch contents (a gather, a scatter-add, a product with the broadcast inverse
    degree): they are compared as whole terms and never opened;
  * the weight a region reads is slab `l` of the transposed `[2, 128, 128]` array, reshaped: entry `(k, q)` is the
    argument's entry `(l, q, k)`;  the bias is row `l` of the `[2, 128]` array as a one-row array;
  * the second neighbourhood sum is the same three operations applied to whatever region 0 left;
  * the results are the two halves of what region 1 left.
-/
import proofs.«116046_j6408091206350_1_alg».proof.Proof.Gen.KernelIdeal.Frame
import proofs.«116046_j6408091206350_1_alg».proof.Proof.Gen.ReferenceIdeal.Read
import proofs.«116046_j6408091206350_1_alg».proof.Proof.Spec
import Idealize.ShloMosaic.Lib.StableHlo.Run
import Idealize.ShloMosaic.Lib.Pipeline.Value

set_option maxRecDepth 16384

noncomputable section

namespace Cert.KernelIdeal.Host

open Idealize.ShloMosaic Idealize.ShloMosaic.TcCoe Idealize.ShloMosaic.ValueIdx Idealize.SL.Sem Idealize.ShloMosaic.StableHlo
open Cert.KernelIdeal Cert.KernelIdeal.Gen
open Cert.ReferenceIdeal.Read

/-! ## Two layout facts: a transposed slab, a bias row -/

/-- Slab `l` of the array transposed on its last two axes, with the unit axis dropped: entry `(k, q)` is the
    array's entry `(l, q, k)`. -/
theorem slabT_eq (W : S2x128x128.Idx → EReal) (l : Fin 2) (n : ℕ) (hn : n = l.val) (hs : S2x128x128.Slices ![n, 0, 0] S1x128x128) :
    shapeCast S128x128 (extractStridedSlice S1x128x128 ![n, 0, 0]
      (transpose S2x128x128 [0, 2, 1] W transposes_S2x128x128_S2x128x128_0_2_1) hs) shapeCasts_S1x128x128_S128x128
      = Cert.Sage.wT W l := by
  subst hn
  funext i
  obtain ⟨k, q, rfl⟩ : ∃ (k : Fin 128) (q : Fin 128), i = ix2 k q := ⟨i 0, i 1, eq_ix2 i⟩
  refine (shapeCast_apply _ shapeCasts_S1x128x128_S128x128 (ix2 k q) (ix3 (0 : Fin 1) k q) ?_).trans ?_
  · rewrite [Shape.rowMajor_val_three, Shape.rowMajor_val_two]
    show (0 * 128 + k.val) * 128 + q.val = k.val * 128 + q.val
    omega
  refine (extractStridedSlice_apply ![l.val, 0, 0] _ hs (ix3 (0 : Fin 1) k q) (ix3 l k q) (fun a => ?_)).trans ?_
  · match a with
    | ⟨0, _⟩ => show l.val = l.val + 0; omega
    | ⟨1, _⟩ => show k.val = 0 + k.val; omega
    | ⟨2, _⟩ => show q.val = 0 + q.val; omega
  refine (transpose_apply [0, 2, 1] W transposes_S2x128x128_S2x128x128_0_2_1 (ix3 l k q) (ix3 l q k) (fun b => ?_)).trans ?_
  · match b with
    | ⟨0, _⟩ => rfl
    | ⟨1, _⟩ => rfl
    | ⟨2, _⟩ => rfl
  rfl

/-- Row `l` of the bias array, flattened and given its unit axis back: the one-row array of that row. -/
theorem biasRow_eq (B : S2x128.Idx → EReal) (l : Fin 2) (n : ℕ) (hn : n = l.val) (hs : S2x128.Slices ![n, 0] S1x128) :
    shapeCast S1x128 (shapeCast S128 (extractStridedSlice S1x128 ![n, 0] B hs) shapeCasts_S1x128_S128) shapeCasts_S128_S1x128
      = Cert.Sage.bRow B l := by
  subst hn
  rw [shapeCast_shapeCast]
  funext i
  refine (extractStridedSlice_apply ![l.val, 0] B hs i (ix2 l (i 1)) (fun a => ?_)).trans rfl
  match a with
  | ⟨0, _⟩ =>
    have h0 : (i 0).val < 1 := (i 0).isLt
    show l.val = l.val + (i 0).val
    omega
  | ⟨1, _⟩ => show (i 1).val = 0 + (i 1).val; omega

variable (m : (ℓ : Loc nD τ sig) → Buf (Elt Ideal) ℓ) (ρ : Dev nD → PrngReg)

/-- The six arguments as launched. -/
abbrev x0 (c : Dev nD) := m ((c : Thread nD τ).loc main_arg0)
abbrev x1 (c : Dev nD) := m ((c : Thread nD τ).loc main_arg1)
abbrev x2 (c : Dev nD) := m ((c : Thread nD τ).loc main_arg2)
abbrev x3 (c : Dev nD) := m ((c : Thread nD τ).loc main_arg3)
abbrev x4 (c : Dev nD) := m ((c : Thread nD τ).loc main_arg4)
abbrev x5 (c : Dev nD) := m ((c : Thread nD τ).loc main_arg5)

/-! ## At region 0's entry -/

set_option maxHeartbeats 2000000 in
/-- The node features: the two embedding tables one above the other. -/
theorem W1_v0 (c : Dev nD) : W1 m ρ c (Proc.devRef .tc main_v0) = val_main_v0 (F := Ideal) (x0 m c) (x1 m c) := by
  show StableHlo.after hostOps0 (W0 m ρ c) (Proc.devRef .tc main_v0) = _
  after_results_simp
  rfl

set_option maxHeartbeats 2000000 in
/-- The first neighbourhood means: features gathered along the edges, summed into their targets, scaled by the inverse
    degree. -/
theorem W1_v27 (c : Dev nD) : W1 m ρ c (Proc.devRef .tc main_v27) = val_main_v25 (F := Ideal) (x0 m c) (x1 m c) (x5 m c) := by
  show StableHlo.after hostOps0 (W0 m ρ c) (Proc.devRef .tc main_v27) = _
  after_results_simp
  rfl

set_option maxHeartbeats 2000000 in
theorem W1_v29 (c : Dev nD) : W1 m ρ c (Proc.devRef .tc main_v29) = Cert.Sage.wT (x2 m c) 0 := by
  show StableHlo.after hostOps0 (W0 m ρ c) (Proc.devRef .tc main_v29) = _
  after_results_simp
  exact slabT_eq _ 0 0 rfl _

set_option maxHeartbeats 2000000 in
theorem W1_v31 (c : Dev nD) : W1 m ρ c (Proc.devRef .tc main_v31) = Cert.Sage.wT (x4 m c) 0 := by
  show StableHlo.after hostOps0 (W0 m ρ c) (Proc.devRef .tc main_v31) = _
  after_results_simp
  exact slabT_eq _ 0 0 rfl _

set_option maxHeartbeats 2000000 in
theorem W1_v34 (c : Dev nD) : W1 m ρ c (Proc.devRef .tc main_v34) = Cert.Sage.bRow (x3 m c) 0 := by
  show StableHlo.after hostOps0 (W0 m ρ c) (Proc.devRef .tc main_v34) = _
  after_results_simp
  exact biasRow_eq _ 0 0 rfl _

/-! ## What the later host operations read of the first stretch -/

set_option maxHeartbeats 2000000 in
theorem W1_v2 (c : Dev nD) : W1 m ρ c (Proc.devRef .tc main_v2) = val_main_v2 (F := Ideal) (x5 m c) := by
  show StableHlo.after hostOps0 (W0 m ρ c) (Proc.devRef .tc main_v2) = _
  after_results_simp
  rfl

set_option maxHeartbeats 2000000 in
theorem W1_v4 (c : Dev nD) : W1 m ρ c (Proc.devRef .tc main_v4) = val_main_v4 (F := Ideal) (x5 m c) := by
  show StableHlo.after hostOps0 (W0 m ρ c) (Proc.devRef .tc main_v4) = _
  after_results_simp
  rfl

set_option maxHeartbeats 2000000 in
theorem W1_v13 (c : Dev nD) : W1 m ρ c (Proc.devRef .tc main_v13) = val_main_v51 (F := Ideal) (x5 m c) := by
  show StableHlo.after hostOps0 (W0 m ρ c) (Proc.devRef .tc main_v13) = _
  after_results_simp
  rfl

set_option maxHeartbeats 2000000 in
theorem W1_v14 (c : Dev nD) : W1 m ρ c (Proc.devRef .tc main_v14)
    = transpose S2x128x128 [0, 2, 1] (x2 m c) transposes_S2x128x128_S2x128x128_0_2_1 := by
  show StableHlo.after hostOps0 (W0 m ρ c) (Proc.devRef .tc main_v14) = _
  after_results_simp

set_option maxHeartbeats 2000000 in
theorem W1_v15 (c : Dev nD) : W1 m ρ c (Proc.devRef .tc main_v15)
    = transpose S2x128x128 [0, 2, 1] (x4 m c) transposes_S2x128x128_S2x128x128_0_2_1 := by
  show StableHlo.after hostOps0 (W0 m ρ c) (Proc.devRef .tc main_v15) = _
  after_results_simp

set_option maxHeartbeats 2000000 in
theorem W1_arg3 (c : Dev nD) : W1 m ρ c (Proc.devRef .tc main_arg3) = x3 m c := by
  show StableHlo.after hostOps0 (W0 m ρ c) (Proc.devRef .tc main_arg3) = _
  after_results_simp

/-! ## At region 1's entry -/

/-- The neighbourhood means of a feature array `X` along the edges `e`: rows of `X` gathered at the edges' sources,
    summed into the edges' targets, each row scaled by its target's inverse degree (the reference's three operations,
    on any `X`). -/
def aggOf {F : FTy → Type} [FloatOps F] (X : (⟨Cert.ReferenceIdeal.S100000x128, .f32⟩ : BufTy).Contents (Elt F))
    (e : (⟨Cert.ReferenceIdeal.S2x1600000, .i32⟩ : BufTy).Contents (Elt F)) :
    (⟨Cert.ReferenceIdeal.S100000x128, .f32⟩ : BufTy).Contents (Elt F) :=
  mulf (Host.scatterAdd Cert.ReferenceIdeal.scatter_S100000x128_S1600000x1_S1600000x128_1_0_0_1 (val_main_v48 (F := F)) (val_main_v49 (F := F) e)
      (Host.gather Cert.ReferenceIdeal.gather_S100000x128_S1600000x1_S1600000x128_1_0_n_n_0_1_1128 X (val_main_v46 (F := F) e)))
    (val_main_v52 (F := F) e)

/-- On the reference's first activation they are the reference's second neighbourhood means. -/
theorem aggOf_act0 {F : FTy → Type} [FloatOps F] (x0 x1 : (⟨Cert.ReferenceIdeal.S50000x128, .f32⟩ : BufTy).Contents (Elt F))
    (x2 : (⟨Cert.ReferenceIdeal.S2x128x128, .f32⟩ : BufTy).Contents (Elt F)) (x3 : (⟨Cert.ReferenceIdeal.S2x128, .f32⟩ : BufTy).Contents (Elt F))
    (x4 : (⟨Cert.ReferenceIdeal.S2x128x128, .f32⟩ : BufTy).Contents (Elt F)) (x5 : (⟨Cert.ReferenceIdeal.S2x1600000, .i32⟩ : BufTy).Contents (Elt F)) :
    aggOf (val_main_v40 (F := F) x0 x1 x2 x3 x4 x5) x5 = val_main_v53 (F := F) x0 x1 x2 x3 x4 x5 := rfl

set_option maxHeartbeats 2000000 in
/-- The second neighbourhood means: the same three operations on what region 0 left. -/
theorem W3_v47 (c : Dev nD) : W3 m ρ c (Proc.devRef .tc main_v47) = aggOf (F := Ideal) (W2 m ρ c (Proc.devRef .tc main_v35)) (x5 m c) := by
  show StableHlo.after hostOps1 (W2 m ρ c) (Proc.devRef .tc main_v47) = _
  after_results_simp
  rw [W2_of_ne m ρ c main_v4 (by decide), W2_of_ne m ρ c main_v2 (by decide), W2_of_ne m ρ c main_v13 (by decide),
    W1_v4, W1_v2, W1_v13]
  rfl

set_option maxHeartbeats 2000000 in
/-- Region 0's output is not written again before region 1 reads it. -/
theorem W3_v35 (c : Dev nD) : W3 m ρ c (Proc.devRef .tc main_v35) = W2 m ρ c (Proc.devRef .tc main_v35) := by
  show StableHlo.after hostOps1 (W2 m ρ c) (Proc.devRef .tc main_v35) = _
  after_results_simp

set_option maxHeartbeats 2000000 in
theorem W3_v49 (c : Dev nD) : W3 m ρ c (Proc.devRef .tc main_v49) = Cert.Sage.wT (x2 m c) 1 := by
  show StableHlo.after hostOps1 (W2 m ρ c) (Proc.devRef .tc main_v49) = _
  after_results_simp
  rw [W2_of_ne m ρ c main_v14 (by decide), W1_v14]
  exact slabT_eq _ 1 1 rfl _

set_option maxHeartbeats 2000000 in
theorem W3_v51 (c : Dev nD) : W3 m ρ c (Proc.devRef .tc main_v51) = Cert.Sage.wT (x4 m c) 1 := by
  show StableHlo.after hostOps1 (W2 m ρ c) (Proc.devRef .tc main_v51) = _
  after_results_simp
  rw [W2_of_ne m ρ c main_v15 (by decide), W1_v15]
  exact slabT_eq _ 1 1 rfl _

set_option maxHeartbeats 2000000 in
theorem W3_v54 (c : Dev nD) : W3 m ρ c (Proc.devRef .tc main_v54) = Cert.Sage.bRow (x3 m c) 1 := by
  show StableHlo.after hostOps1 (W2 m ρ c) (Proc.devRef .tc main_v54) = _
  after_results_simp
  rw [W2_of_ne m ρ c main_arg3 (by decide), W1_arg3]
  exact biasRow_eq _ 1 1 rfl _

/-! ## The results -/

set_option maxHeartbeats 2000000 in
theorem W5_v56 (c : Dev nD) : W5 m ρ c (Proc.devRef .tc main_v56)
    = extractStridedSlice S50000x128 ![0, 0] (W4 m ρ c (Proc.devRef .tc main_v55)) slices_S100000x128_S50000x128_0_0 := by
  show StableHlo.after hostOps2 (W4 m ρ c) (Proc.devRef .tc main_v56) = _
  after_results_simp

set_option maxHeartbeats 2000000 in
theorem W5_v57 (c : Dev nD) : W5 m ρ c (Proc.devRef .tc main_v57)
    = extractStridedSlice S50000x128 ![50000, 0] (W4 m ρ c (Proc.devRef .tc main_v55)) slices_S100000x128_S50000x128_50000_0 := by
  show StableHlo.after hostOps2 (W4 m ρ c) (Proc.devRef .tc main_v57) = _
  after_results_simp

end Cert.KernelIdeal.Host

end
-- ==== Proof.LibPlainDot.lean ====
/-
  A plain matrix product `[M, K] × [K, N] → [M, N]` — the left operand's columns contracted with the right operand's
  rows, no batch axis — read at the output entry `(p, q)` at the ideal values: the sum over `k : Fin K` of
  `l (p, k) * r (k, q)`. The device's `matmul` into the zero accumulator and the host's `dot_general` are both
  this sum, whatever record spells the dimension numbers, as long as it is the plain one (`hd`, which a printed
  record meets by `rfl`); and nothing depends on the sizes, so one statement serves a block of rows and the
  whole array alike.
  Beside it: a sum over `Fin (a + b)` of a function that reads its first `a` positions from one family and the
  rest from another is the two families' sums — what a product with two column blocks joined side by side is.
-/
import Idealize.ShloMosaic.Lib.ValueIdx
import Idealize.ShloMosaic.PureOps.Ideal.Laws
import Mathlib.Algebra.BigOperators.Fin

namespace Cert.PlainDot

open Idealize.ShloMosaic Idealize.ShloMosaic.ValueIdx

variable {M K N : ℕ}

/-- The left operand index of the plain product at output `(p, q)` and contraction position `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := 1) rfl (ix2 p q) _).trans hk

/-- The right operand index is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of the plain product, re-indexed by the one contracted coordinate. -/
theorem plain_sum {β : Type*} [AddCommMonoid β] (f : (⟨2, ![M, K]⟩ : Shape).Idx → (⟨2, ![K, N]⟩ : Shape).Idx → β)
    (p : Fin M) (q : Fin N) :
    ∑ k : (DotDims.plain M K N).contr.Idx,
        f ((DotDims.plain M K N).lhsIdx (ix2 p q) k) ((DotDims.plain M K N).rhsIdx (ix2 p q) k)
      = ∑ k : Fin K, f (ix2 p k) (ix2 k q) := by
  rw [← Equiv.sum_comp (contrEquiv1 (DotDims.plain M K N) K rfl rfl).symm]
  refine Finset.sum_congr rfl fun k _ => ?_
  rw [plain_lhsIdx, plain_rhsIdx]

variable {φ₁ φ₂ : FTy}

/-- The device's matrix product into the zero accumulator, at `(p, q)`. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  subst hd
  simp only [matmul]
  rw [Ideal.matmul_constant_zero_apply]
  exact plain_sum (fun a b => l a * r b) p q

/-- The host's `dot_general`, at `(p, q)`. -/
theorem dotGeneral_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum (fun a b => l a * r b) p q

/-- A sum over `Fin (a + b)` of a function given piecewise — below `a` by `f`, from `a` on by `g` — is the sum of
    `f` plus the sum of `g`. -/
theorem sum_two_blocks {β : Type*} [AddCommMonoid β] {a b n : ℕ} (hn : n = a + b) (F : Fin n → β) (f : Fin a → β) (g : Fin b → β)
    (hf : ∀ k : Fin a, F ⟨k.val, by have := k.isLt; omega⟩ = f k)
    (hg : ∀ k : Fin b, F ⟨a + k.val, by have := k.isLt; omega⟩ = g k) :
    ∑ k : Fin n, F k = ∑ k : Fin a, f k + ∑ k : Fin b, g k := by
  subst hn
  rw [Fin.sum_univ_add]
  refine congrArg₂ (· + ·) (Finset.sum_congr rfl fun k _ => ?_) (Finset.sum_congr rfl fun k _ => ?_)
  · exact hf k
  · exact hg k

end Cert.PlainDot
-- ==== Proof.KernelBody.lean ====
import proofs.«116046_j6408091206350_1_alg».proof.Proof.Gen.KernelIdeal.Skeleton
import proofs.«116046_j6408091206350_1_alg».proof.Proof.Spec
import proofs.«116046_j6408091206350_1_alg».proof.Proof.LibPlainDot
import Idealize.ShloMosaic.Lib.Pipeline.Value

noncomputable section

namespace Cert.KernelIdeal.Body

open Idealize.ShloMosaic Idealize.ShloMosaic.ValueIdx Cert.KernelIdeal Cert.KernelIdeal.Gen

/-- The one-row bias broadcast down the rows: entry `(p, q)` is the bias at column `q`. -/
theorem bias_rows (v : Vec Ideal S1x128 .f32) (p : Fin 5000) (q : Fin 128) :
    broadcastTo S5000x128 v broadcasts_S1x128_S5000x128 (ix2 p q) = v (ix2 0 q) := by
  refine broadcastTo_apply v _ (ix2 p q) (ix2 0 q) ?_
  intro a
  match a with
  | ⟨0, _⟩ => rfl
  | ⟨1, _⟩ => rfl

/-- One block's body at entry `(p, q)`: the two products into the zero accumulator are the two contraction sums, the
    rounding to the narrower format is the identity on ideal values, the bias row is read at column `q`, and the
    clip is the maximum with zero. -/
theorem pay0_eq (x0 x1 : Vec Ideal S5000x128 .f32) (x2 x3 : Vec Ideal S128x128 .f32) (x4 : Vec Ideal S1x128 .f32) :
    k0_pay1 (F := Ideal) x0 x1 x2 x3 x4 = Cert.Sage.layerArr x0 x1 x2 x3 x4 := by
  funext i
  obtain ⟨p, q, rfl⟩ : ∃ (p : Fin 5000) (q : Fin 128), i = ix2 p q := ⟨i 0, i 1, eq_ix2 i⟩
  rw [Cert.Sage.layerArr_apply]
  unfold k0_pay1 Cert.Sage.layerAt
  simp only [shapeCast_self]
  rw [maximumf_apply, addf_apply, addf_apply, broadcast_apply, bias_rows,
    Cert.PlainDot.matmul_zero_apply dot_S5000x128_S128x128_S5000x128_1_0_0_1_n_n rfl,
    Cert.PlainDot.matmul_zero_apply dot_S5000x128_S128x128_S5000x128_1_0_0_1_n_n rfl]
  simp only [truncf_apply]
  exact congrArg (max _) Ideal.ofBits_zero_f32

/-- The second call's body is the same text. -/
theorem pay1_eq (x0 x1 : Vec Ideal S5000x128 .f32) (x2 x3 : Vec Ideal S128x128 .f32) (x4 : Vec Ideal S1x128 .f32) :
    k1_pay1 (F := Ideal) x0 x1 x2 x3 x4 = Cert.Sage.layerArr x0 x1 x2 x3 x4 :=
  pay0_eq x0 x1 x2 x3 x4

end Cert.KernelIdeal.Body

end
-- ==== Proof.Region0.lean ====
import proofs.«116046_j6408091206350_1_alg».proof.Proof.Gen.KernelIdeal.Frame
import proofs.«116046_j6408091206350_1_alg».proof.Proof.KernelBody
import Idealize.ShloMosaic.Lib.Pipeline.Value

set_option maxRecDepth 16384
noncomputable section

namespace Cert.KernelIdeal.Region0

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point `t` of the 20 points: the two row-blocked inputs and the output are at
    block row `t`, block column `0`; the two matrices and the bias are the one block `(0, 0)`. -/
theorem idx_facts : ∀ t : Fin cfg0.N, t.val < 20
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every one of the 20 row blocks is some point's. -/
theorem idx_onto : ∀ b : Fin 20, ∃ t : Fin cfg0.N, t.val = b.val :=
  (by decide +kernel : ∀ b : Fin 20, ∃ t : Fin grid0.N, t.val = b.val)

/-- Row `p` of the first input's block at point `t` is row `5000 t + p` of its array. -/
theorem blk0_read (c : Dev nD) (t : Fin cfg0.N) (p : Fin 5000) (k : Fin 128) (r : Fin 100000)
    (hr : r.val = 5000 * t.val + p.val) :
    iblk0 V c 0 t (ix2 p k) = V c main_v27 (ix2 r k) := by
  show V c main_v27 (((cfg0.win 0).blk t).view.emb (ix2 p k)) = _
  refine congrArg (V c main_v27) ?_
  obtain ⟨ht, e00, e01, -⟩ := idx_facts t
  funext a; apply Fin.ext
  match a with
  | ⟨0, _⟩ => show win0_0.index t (0 : Fin 2) * 5000 + 1 * p.val = r.val; omega
  | ⟨1, _⟩ => show win0_0.index t (1 : Fin 2) * 128 + 1 * k.val = k.val; omega

/-- Row `p` of the second input's block at point `t` is row `5000 t + p` of its array. -/
theorem blk1_read (c : Dev nD) (t : Fin cfg0.N) (p : Fin 5000) (k : Fin 128) (r : Fin 100000)
    (hr : r.val = 5000 * t.val + p.val) :
    iblk0 V c 1 t (ix2 p k) = V c main_v0 (ix2 r k) := by
  show V c main_v0 (((cfg0.win 1).blk t).view.emb (ix2 p k)) = _
  refine congrArg (V c main_v0) ?_
  obtain ⟨ht, -, -, e10, e11, -⟩ := idx_facts t
  funext a; apply Fin.ext
  match a with
  | ⟨0, _⟩ => show win0_1.index t (0 : Fin 2) * 5000 + 1 * p.val = r.val; omega
  | ⟨1, _⟩ => show win0_1.index t (1 : Fin 2) * 128 + 1 * k.val = k.val; omega

/-- The first matrix's block is the whole matrix at every point. -/
theorem blk2_read (c : Dev nD) (t : Fin cfg0.N) (y : S128x128.Idx) :
    iblk0 V c 2 t y = V c main_v29 y := by
  show V c main_v29 (((cfg0.win 2).blk t).view.emb y) = _
  refine congrArg (V c main_v29) ?_
  obtain ⟨ht, -, -, -, -, e20, e21, -⟩ := idx_facts t
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The second matrix's block is the whole matrix at every point. -/
theorem blk3_read (c : Dev nD) (t : Fin cfg0.N) (y : S128x128.Idx) :
    iblk0 V c 3 t y = V c main_v31 y := by
  show V c main_v31 (((cfg0.win 3).blk t).view.emb y) = _
  refine congrArg (V c main_v31) ?_
  obtain ⟨ht, -, -, -, -, -, -, e30, e31, -⟩ := idx_facts t
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The bias row's block is the whole row at every point. -/
theorem blk4_read (c : Dev nD) (t : Fin cfg0.N) (y : S1x128.Idx) :
    iblk0 V c 4 t y = V c main_v34 y := by
  show V c main_v34 (((cfg0.win 4).blk t).view.emb y) = _
  refine congrArg (V c main_v34) ?_
  obtain ⟨ht, -, -, -, -, -, -, -, -, e40, e41, -⟩ := idx_facts t
  funext a; apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Entry `(p, q)` of the output's block at point `t` is entry `(5000 t + p, q)` of its array. -/
theorem blk5_emb (t : Fin cfg0.N) (p : Fin 5000) (q : Fin 128) (r : Fin 100000)
    (hr : r.val = 5000 * t.val + p.val) :
    ((cfg0.win 5).blk t).view.emb (ix2 p q) = ix2 r q := by
  obtain ⟨ht, -, -, -, -, -, -, -, -, -, -, e50, e51⟩ := idx_facts t
  funext a; apply Fin.ext
  match a with
  | ⟨0, _⟩ => show win0_5.index t (0 : Fin 2) * 5000 + 1 * p.val = r.val; omega
  | ⟨1, _⟩ => show win0_5.index t (1 : Fin 2) * 128 + 1 * q.val = q.val; omega

/-- What point `t` writes back is block `t` of the layer of the whole arrays: the body computes the layer of its
    blocks, an entry of the layer reads one row of each row-blocked input, and row `p` of a block at point `t` is row
    `5000 t + p` of the array. -/
theorem flushed_eq (c : Dev nD) (t : Fin cfg0.N) :
    (dat0 (F := Ideal) V c).flushed 5 t = ((cfg0.win 5).blk t).view.read (Elt Ideal)
      (Cert.Sage.layerArr (V c main_v27) (V c main_v0) (V c main_v29) (V c main_v31) (V c main_v34)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  rw [Body.pay0_eq]
  funext j
  obtain ⟨p, q, rfl⟩ : ∃ (p : Fin 5000) (q : Fin 128), j = ix2 p q := ⟨j 0, j 1, eq_ix2 j⟩
  obtain ⟨ht, -⟩ := idx_facts t
  obtain ⟨r, hr⟩ : ∃ r : Fin 100000, r.val = 5000 * t.val + p.val :=
    ⟨⟨5000 * t.val + p.val, by have := p.isLt; omega⟩, rfl⟩
  show Cert.Sage.layerArr (iblk0 V c 0 t) (iblk0 V c 1 t) (iblk0 V c 2 t) (iblk0 V c 3 t) (iblk0 V c 4 t) (ix2 p q)
    = Cert.Sage.layerArr (V c main_v27) (V c main_v0) (V c main_v29) (V c main_v31) (V c main_v34)
        (((cfg0.win 5).blk t).view.emb (ix2 p q))
  rw [blk5_emb t p q r hr, Cert.Sage.layerArr_apply, Cert.Sage.layerArr_apply,
    show iblk0 V c 2 t = V c main_v29 from funext (blk2_read V c t),
    show iblk0 V c 3 t = V c main_v31 from funext (blk3_read V c t),
    show iblk0 V c 4 t = V c main_v34 from funext (blk4_read V c t)]
  exact Cert.Sage.layerAt_congr_rows _ _ _ _ _ _ _ p r q (fun k => blk0_read V c t p k r hr) (fun k => blk1_read V c t p k r hr)

/-- An index of the array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v35).slice (win0_5.rect t)).set ↔ _
  rw [View.set_slice_whole, Rect.mem_set_unit]
  exact Iff.rfl

/-- Every entry of the array is written back by some point: row `r` by point `r / 5000`. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto ⟨(i 0).val / 5000, by omega⟩
  have ht' : t.val = (i 0).val / 5000 := ht
  obtain ⟨-, -, -, -, -, -, -, -, -, -, -, e50, e51⟩ := idx_facts t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the 20 points is the layer of the input arrays. -/
theorem value (c : Dev nD) :
    (dat0 (F := Ideal) V c).arrAt 5 cfg0.N
      = Cert.Sage.layerArr (V c main_v27) (V c main_v0) (V c main_v29) (V c main_v31) (V c main_v34) :=
  (dat0 (F := Ideal) V c).arrAt_eq_of_cover 5 _ (fun t _ => flushed_eq V c t) (fun i => covered i)

end Cert.KernelIdeal.Region0

end
-- ==== Proof.Region1.lean ====
import proofs.«116046_j6408091206350_1_alg».proof.Proof.Gen.KernelIdeal.Frame
import proofs.«116046_j6408091206350_1_alg».proof.Proof.KernelBody
import Idealize.ShloMosaic.Lib.Pipeline.Value

set_option maxRecDepth 16384
noncomputable section

namespace Cert.KernelIdeal.Region1

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point `t` of the 20 points: the two row-blocked inputs and the output are at
    block row `t`, block column `0`; the two matrices and the bias are the one block `(0, 0)`. -/
theorem idx_facts : ∀ t : Fin cfg1.N, t.val < 20
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Every one of the 20 row blocks is some point's. -/
theorem idx_onto : ∀ b : Fin 20, ∃ t : Fin cfg1.N, t.val = b.val :=
  (by decide +kernel : ∀ b : Fin 20, ∃ t : Fin grid1.N, t.val = b.val)

/-- Row `p` of the first input's block at point `t` is row `5000 t + p` of its array. -/
theorem blk0_read (c : Dev nD) (t : Fin cfg1.N) (p : Fin 5000) (k : Fin 128) (r : Fin 100000)
    (hr : r.val = 5000 * t.val + p.val) :
    iblk1 V c 0 t (ix2 p k) = V c main_v47 (ix2 r k) := by
  show V c main_v47 (((cfg1.win 0).blk t).view.emb (ix2 p k)) = _
  refine congrArg (V c main_v47) ?_
  obtain ⟨ht, e00, e01, -⟩ := idx_facts t
  funext a; apply Fin.ext
  match a with
  | ⟨0, _⟩ => show win1_0.index t (0 : Fin 2) * 5000 + 1 * p.val = r.val; omega
  | ⟨1, _⟩ => show win1_0.index t (1 : Fin 2) * 128 + 1 * k.val = k.val; omega

/-- Row `p` of the second input's block at point `t` is row `5000 t + p` of its array. -/
theorem blk1_read (c : Dev nD) (t : Fin cfg1.N) (p : Fin 5000) (k : Fin 128) (r : Fin 100000)
    (hr : r.val = 5000 * t.val + p.val) :
    iblk1 V c 1 t (ix2 p k) = V c main_v35 (ix2 r k) := by
  show V c main_v35 (((cfg1.win 1).blk t).view.emb (ix2 p k)) = _
  refine congrArg (V c main_v35) ?_
  obtain ⟨ht, -, -, e10, e11, -⟩ := idx_facts t
  funext a; apply Fin.ext
  match a with
  | ⟨0, _⟩ => show win1_1.index t (0 : Fin 2) * 5000 + 1 * p.val = r.val; omega
  | ⟨1, _⟩ => show win1_1.index t (1 : Fin 2) * 128 + 1 * k.val = k.val; omega

/-- The first matrix's block is the whole matrix at every point. -/
theorem blk2_read (c : Dev nD) (t : Fin cfg1.N) (y : S128x128.Idx) :
    iblk1 V c 2 t y = V c main_v49 y := by
  show V c main_v49 (((cfg1.win 2).blk t).view.emb y) = _
  refine congrArg (V c main_v49) ?_
  obtain ⟨ht, -, -, -, -, e20, e21, -⟩ := idx_facts t
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The second matrix's block is the whole matrix at every point. -/
theorem blk3_read (c : Dev nD) (t : Fin cfg1.N) (y : S128x128.Idx) :
    iblk1 V c 3 t y = V c main_v51 y := by
  show V c main_v51 (((cfg1.win 3).blk t).view.emb y) = _
  refine congrArg (V c main_v51) ?_
  obtain ⟨ht, -, -, -, -, -, -, e30, e31, -⟩ := idx_facts t
  funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The bias row's block is the whole row at every point. -/
theorem blk4_read (c : Dev nD) (t : Fin cfg1.N) (y : S1x128.Idx) :
    iblk1 V c 4 t y = V c main_v54 y := by
  show V c main_v54 (((cfg1.win 4).blk t).view.emb y) = _
  refine congrArg (V c main_v54) ?_
  obtain ⟨ht, -, -, -, -, -, -, -, -, e40, e41, -⟩ := idx_facts t
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- Entry `(p, q)` of the output's block at point `t` is entry `(5000 t + p, q)` of its array. -/
theorem blk5_emb (t : Fin cfg1.N) (p : Fin 5000) (q : Fin 128) (r : Fin 100000)
    (hr : r.val = 5000 * t.val + p.val) :
    ((cfg1.win 5).blk t).view.emb (ix2 p q) = ix2 r q := by
  obtain ⟨ht, -, -, -, -, -, -, -, -, -, -, e50, e51⟩ := idx_facts t
  funext a; apply Fin.ext
  match a with
  | ⟨0, _⟩ => show win1_5.index t (0 : Fin 2) * 5000 + 1 * p.val = r.val; omega
  | ⟨1, _⟩ => show win1_5.index t (1 : Fin 2) * 128 + 1 * q.val = q.val; omega

/-- What point `t` writes back is block `t` of the layer of the whole arrays: the body computes the layer of its
    blocks, an entry of the layer reads one row of each row-blocked input, and row `p` of a block at point `t` is row
    `5000 t + p` of the array. -/
theorem flushed_eq (c : Dev nD) (t : Fin cfg1.N) :
    (dat1 (F := Ideal) V c).flushed 5 t = ((cfg1.win 5).blk t).view.read (Elt Ideal)
      (Cert.Sage.layerArr (V c main_v47) (V c main_v35) (V c main_v49) (V c main_v51) (V c main_v54)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  rw [Body.pay1_eq]
  funext j
  obtain ⟨p, q, rfl⟩ : ∃ (p : Fin 5000) (q : Fin 128), j = ix2 p q := ⟨j 0, j 1, eq_ix2 j⟩
  obtain ⟨ht, -⟩ := idx_facts t
  obtain ⟨r, hr⟩ : ∃ r : Fin 100000, r.val = 5000 * t.val + p.val :=
    ⟨⟨5000 * t.val + p.val, by have := p.isLt; omega⟩, rfl⟩
  show Cert.Sage.layerArr (iblk1 V c 0 t) (iblk1 V c 1 t) (iblk1 V c 2 t) (iblk1 V c 3 t) (iblk1 V c 4 t) (ix2 p q)
    = Cert.Sage.layerArr (V c main_v47) (V c main_v35) (V c main_v49) (V c main_v51) (V c main_v54)
        (((cfg1.win 5).blk t).view.emb (ix2 p q))
  rw [blk5_emb t p q r hr, Cert.Sage.layerArr_apply, Cert.Sage.layerArr_apply,
    show iblk1 V c 2 t = V c main_v49 from funext (blk2_read V c t),
    show iblk1 V c 3 t = V c main_v51 from funext (blk3_read V c t),
    show iblk1 V c 4 t = V c main_v54 from funext (blk4_read V c t)]
  exact Cert.Sage.layerAt_congr_rows _ _ _ _ _ _ _ p r q (fun k => blk0_read V c t p k r hr) (fun k => blk1_read V c t p k r hr)

/-- An index of the array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v55).slice (win1_5.rect t)).set ↔ _
  rw [View.set_slice_whole, Rect.mem_set_unit]
  exact Iff.rfl

/-- Every entry of the array is written back by some point: row `r` by point `r / 5000`. -/
theorem covered (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto ⟨(i 0).val / 5000, by omega⟩
  have ht' : t.val = (i 0).val / 5000 := ht
  obtain ⟨-, -, -, -, -, -, -, -, -, -, -, e50, e51⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after the 20 points is the layer of the input arrays. -/
theorem value (c : Dev nD) :
    (dat1 (F := Ideal) V c).arrAt 5 cfg1.N
      = Cert.Sage.layerArr (V c main_v47) (V c main_v35) (V c main_v49) (V c main_v51) (V c main_v54) :=
  (dat1 (F := Ideal) V c).arrAt_eq_of_cover 5 _ (fun t _ => flushed_eq V c t) (fun i => covered i)

end Cert.KernelIdeal.Region1

end
-- ==== Proof.RefLayer.lean ====
/-
  The reference's two layers, read entry by entry.

  Each layer of the reference is: the neighbourhood means times a matrix, plus a bias row spread over all rows, plus
  the layer's input times a second matrix, clipped below at zero. The two matrices are slabs of the [2, 128, 128]
  weight arrays, cut out, flattened to two axes and transposed, so the (k, q) entry the product reads is the
  slab's (q, k) entry; the bias row is one row of the [2, 128] bias array. Entry (p, q) of a product is the sum
  over k of the left operand at (p, k) times the matrix at (k, q). Put together, entry (p, q) of a layer is
  max ((sum_k A(p,k) * Wl(k,q)) + b(q) + (sum_k X(p,k) * Wr(k,q))) 0, the specification's entry with the bias added
  before the second product. The neighbourhood means and the layer inputs are never opened: they are the same
  terms on both sides.
-/
import proofs.«116046_j6408091206350_1_alg».proof.Proof.Gen.ReferenceIdeal.Read
import proofs.«116046_j6408091206350_1_alg».proof.Proof.Spec
import proofs.«116046_j6408091206350_1_alg».proof.Proof.LibPlainDot

noncomputable section

namespace Cert.ReferenceIdeal.RefValue

open Idealize.ShloMosaic Idealize.ShloMosaic.ValueIdx Cert.ReferenceIdeal Cert.ReferenceIdeal.Gen Cert.ReferenceIdeal.Read

/-- The first layer's left matrix as the product reads it: slab 0 of the weights, cut out, flattened to two axes and transposed, is the transposed slab of the specification. -/
theorem wl0_at (x2 : (⟨S2x128x128, .f32⟩ : BufTy).Contents (Elt Ideal)) (k q : Fin 128) :
    val_main_v28 (F := Ideal) x2 (ix2 k q) = Cert.Sage.wT x2 0 (ix2 k q) := by
  rw [val_main_v28_apply, val_main_v27_apply, val_main_v26_apply]
  show x2 _ = x2 _
  congr 1
  funext a
  apply Fin.ext
  have hk := k.isLt
  have hq := q.isLt
  match a with
  | ⟨0, _⟩ => rfl
  | ⟨1, _⟩ => show (q.val * 128 + k.val) / 128 % 128 = q.val; omega
  | ⟨2, _⟩ => show (q.val * 128 + k.val) % 128 = k.val; omega

/-- The first layer's right matrix: slab 0 of the second weight array, transposed. -/
theorem wr0_at (x4 : (⟨S2x128x128, .f32⟩ : BufTy).Contents (Elt Ideal)) (k q : Fin 128) :
    val_main_v37 (F := Ideal) x4 (ix2 k q) = Cert.Sage.wT x4 0 (ix2 k q) := by
  rw [val_main_v37_apply, val_main_v36_apply, val_main_v35_apply]
  show x4 _ = x4 _
  congr 1
  funext a
  apply Fin.ext
  have hk := k.isLt
  have hq := q.isLt
  match a with
  | ⟨0, _⟩ => rfl
  | ⟨1, _⟩ => show (q.val * 128 + k.val) / 128 % 128 = q.val; omega
  | ⟨2, _⟩ => show (q.val * 128 + k.val) % 128 = k.val; omega

/-- The second layer's left matrix: slab 1 of the weights, transposed. -/
theorem wl1_at (x2 : (⟨S2x128x128, .f32⟩ : BufTy).Contents (Elt Ideal)) (k q : Fin 128) :
    val_main_v56 (F := Ideal) x2 (ix2 k q) = Cert.Sage.wT x2 1 (ix2 k q) := by
  rw [val_main_v56_apply, val_main_v55_apply, val_main_v54_apply]
  show x2 _ = x2 _
  congr 1
  funext a
  apply Fin.ext
  have hk := k.isLt
  have hq := q.isLt
  match a with
  | ⟨0, _⟩ => rfl
  | ⟨1, _⟩ => show (q.val * 128 + k.val) / 128 % 128 = q.val; omega
  | ⟨2, _⟩ => show (q.val * 128 + k.val) % 128 = k.val; omega

/-- The second layer's right matrix: slab 1 of the second weight array, transposed. -/
theorem wr1_at (x4 : (⟨S2x128x128, .f32⟩ : BufTy).Contents (Elt Ideal)) (k q : Fin 128) :
    val_main_v65 (F := Ideal) x4 (ix2 k q) = Cert.Sage.wT x4 1 (ix2 k q) := by
  rw [val_main_v65_apply, val_main_v64_apply, val_main_v63_apply]
  show x4 _ = x4 _
  congr 1
  funext a
  apply Fin.ext
  have hk := k.isLt
  have hq := q.isLt
  match a with
  | ⟨0, _⟩ => rfl
  | ⟨1, _⟩ => show (q.val * 128 + k.val) / 128 % 128 = q.val; omega
  | ⟨2, _⟩ => show (q.val * 128 + k.val) % 128 = k.val; omega

/-- The first layer's bias, spread over all rows: entry (p, q) is row 0 of the bias array at column q. -/
theorem bias0_at (x3 : (⟨S2x128, .f32⟩ : BufTy).Contents (Elt Ideal)) (p : Fin 100000) (q : Fin 128) :
    val_main_v33 (F := Ideal) x3 (ix2 p q) = Cert.Sage.bRow x3 0 (ix2 0 q) := by
  rw [val_main_v33_apply, val_main_v32_apply, val_main_v31_apply, val_main_v30_apply]
  show x3 _ = x3 _
  congr 1
  funext a
  apply Fin.ext
  have hq := q.isLt
  match a with
  | ⟨0, _⟩ => rfl
  | ⟨1, _⟩ => show q.val % 128 = q.val; omega

/-- The second layer's bias: row 1 of the bias array at column q. -/
theorem bias1_at (x3 : (⟨S2x128, .f32⟩ : BufTy).Contents (Elt Ideal)) (p : Fin 100000) (q : Fin 128) :
    val_main_v61 (F := Ideal) x3 (ix2 p q) = Cert.Sage.bRow x3 1 (ix2 0 q) := by
  rw [val_main_v61_apply, val_main_v60_apply, val_main_v59_apply, val_main_v58_apply]
  show x3 _ = x3 _
  congr 1
  funext a
  apply Fin.ext
  have hq := q.isLt
  match a with
  | ⟨0, _⟩ => rfl
  | ⟨1, _⟩ => show q.val % 128 = q.val; omega

/-- The clip's lower bound, first layer: the scalar zero spread over the array. -/
theorem zero0_at (p : Fin 100000) (q : Fin 128) : val_main_call0_v0 (F := Ideal) (ix2 p q) = (0 : EReal) := by
  rw [val_main_call0_v0_apply, val_main_call0_cst_apply, Ideal.ofBits_def, Ideal.ofBits_zero_f32]

/-- The clip's lower bound, second layer. -/
theorem zero1_at (p : Fin 100000) (q : Fin 128) : val_main_call1_v0 (F := Ideal) (ix2 p q) = (0 : EReal) := by
  rw [val_main_call1_v0_apply, val_main_call1_cst_apply, Ideal.ofBits_def, Ideal.ofBits_zero_f32]

/-- First layer, the product of the neighbourhood means with the left matrix, at (p, q). -/
theorem prodL0_at (x0 x1 : (⟨S50000x128, .f32⟩ : BufTy).Contents (Elt Ideal)) (x2 : (⟨S2x128x128, .f32⟩ : BufTy).Contents (Elt Ideal)) (x5 : (⟨S2x1600000, .i32⟩ : BufTy).Contents (Elt Ideal)) (p : Fin 100000) (q : Fin 128) :
    val_main_v29 (F := Ideal) x0 x1 x2 x5 (ix2 p q)
      = ∑ k : Fin 128, (val_main_v25 (F := Ideal) x0 x1 x5 (ix2 p k) : EReal) * (Cert.Sage.wT x2 0 (ix2 k q) : EReal) := by
  rw [val_main_v29_apply]
  refine Finset.sum_congr rfl fun k _ => ?_
  have el : lidx_main_v29 (ix2 p q) k = ix2 p k :=
    funext fun a => Fin.ext (by match a with | ⟨0, _⟩ => rfl | ⟨1, _⟩ => rfl)
  have er : ridx_main_v29 (ix2 p q) k = ix2 k q :=
    funext fun a => Fin.ext (by match a with | ⟨0, _⟩ => rfl | ⟨1, _⟩ => rfl)
  rw [el, er, wl0_at]

/-- First layer, the product of the node features with the right matrix, at (p, q). -/
theorem prodR0_at (x0 x1 : (⟨S50000x128, .f32⟩ : BufTy).Contents (Elt Ideal)) (x4 : (⟨S2x128x128, .f32⟩ : BufTy).Contents (Elt Ideal)) (p : Fin 100000) (q : Fin 128) :
    val_main_v38 (F := Ideal) x0 x1 x4 (ix2 p q)
      = ∑ k : Fin 128, (val_main_v0 (F := Ideal) x0 x1 (ix2 p k) : EReal) * (Cert.Sage.wT x4 0 (ix2 k q) : EReal) := by
  rw [val_main_v38_apply]
  refine Finset.sum_congr rfl fun k _ => ?_
  have el : lidx_main_v38 (ix2 p q) k = ix2 p k :=
    funext fun a => Fin.ext (by match a with | ⟨0, _⟩ => rfl | ⟨1, _⟩ => rfl)
  have er : ridx_main_v38 (ix2 p q) k = ix2 k q :=
    funext fun a => Fin.ext (by match a with | ⟨0, _⟩ => rfl | ⟨1, _⟩ => rfl)
  rw [el, er, wr0_at]

/-- Second layer, the product of the neighbourhood means with the left matrix, at (p, q). -/
theorem prodL1_at (x0 x1 : (⟨S50000x128, .f32⟩ : BufTy).Contents (Elt Ideal)) (x2 : (⟨S2x128x128, .f32⟩ : BufTy).Contents (Elt Ideal)) (x3 : (⟨S2x128, .f32⟩ : BufTy).Contents (Elt Ideal)) (x4 : (⟨S2x128x128, .f32⟩ : BufTy).Contents (Elt Ideal)) (x5 : (⟨S2x1600000, .i32⟩ : BufTy).Contents (Elt Ideal)) (p : Fin 100000) (q : Fin 128) :
    val_main_v57 (F := Ideal) x0 x1 x2 x3 x4 x5 (ix2 p q)
      = ∑ k : Fin 128, (val_main_v53 (F := Ideal) x0 x1 x2 x3 x4 x5 (ix2 p k) : EReal) * (Cert.Sage.wT x2 1 (ix2 k q) : EReal) := by
  rw [val_main_v57_apply]
  refine Finset.sum_congr rfl fun k _ => ?_
  have el : lidx_main_v57 (ix2 p q) k = ix2 p k :=
    funext fun a => Fin.ext (by match a with | ⟨0, _⟩ => rfl | ⟨1, _⟩ => rfl)
  have er : ridx_main_v57 (ix2 p q) k = ix2 k q :=
    funext fun a => Fin.ext (by match a with | ⟨0, _⟩ => rfl | ⟨1, _⟩ => rfl)
  rw [el, er, wl1_at]

/-- Second layer, the product of the first layer's output with the right matrix, at (p, q). -/
theorem prodR1_at (x0 x1 : (⟨S50000x128, .f32⟩ : BufTy).Contents (Elt Ideal)) (x2 : (⟨S2x128x128, .f32⟩ : BufTy).Contents (Elt Ideal)) (x3 : (⟨S2x128, .f32⟩ : BufTy).Contents (Elt Ideal)) (x4 : (⟨S2x128x128, .f32⟩ : BufTy).Contents (Elt Ideal)) (x5 : (⟨S2x1600000, .i32⟩ : BufTy).Contents (Elt Ideal)) (p : Fin 100000) (q : Fin 128) :
    val_main_v66 (F := Ideal) x0 x1 x2 x3 x4 x5 (ix2 p q)
      = ∑ k : Fin 128, (val_main_v40 (F := Ideal) x0 x1 x2 x3 x4 x5 (ix2 p k) : EReal) * (Cert.Sage.wT x4 1 (ix2 k q) : EReal) := by
  rw [val_main_v66_apply]
  refine Finset.sum_congr rfl fun k _ => ?_
  have el : lidx_main_v66 (ix2 p q) k = ix2 p k :=
    funext fun a => Fin.ext (by match a with | ⟨0, _⟩ => rfl | ⟨1, _⟩ => rfl)
  have er : ridx_main_v66 (ix2 p q) k = ix2 k q :=
    funext fun a => Fin.ext (by match a with | ⟨0, _⟩ => rfl | ⟨1, _⟩ => rfl)
  rw [el, er, wr1_at]

/-- The first layer of the reference is the specification's layer on the neighbourhood means and the node features: entry (p, q) is the clip at zero of (left product + bias) + right product, which is the specification's entry with the bias added before the second product. -/
theorem layer0 (x0 x1 : (⟨S50000x128, .f32⟩ : BufTy).Contents (Elt Ideal)) (x2 : (⟨S2x128x128, .f32⟩ : BufTy).Contents (Elt Ideal)) (x3 : (⟨S2x128, .f32⟩ : BufTy).Contents (Elt Ideal)) (x4 : (⟨S2x128x128, .f32⟩ : BufTy).Contents (Elt Ideal)) (x5 : (⟨S2x1600000, .i32⟩ : BufTy).Contents (Elt Ideal)) :
    val_main_v40 (F := Ideal) x0 x1 x2 x3 x4 x5
      = Cert.Sage.layerArr (val_main_v25 (F := Ideal) x0 x1 x5) (val_main_v0 (F := Ideal) x0 x1) (Cert.Sage.wT x2 0) (Cert.Sage.wT x4 0) (Cert.Sage.bRow x3 0) := by
  funext i
  obtain ⟨p, q, rfl⟩ : ∃ (p : Fin 100000) (q : Fin 128), i = ix2 p q := ⟨i 0, i 1, eq_ix2 i⟩
  rw [Cert.Sage.layerArr_apply, ← Cert.Sage.layerAt_bias_first, val_main_v40_apply, val_main_v39_apply, val_main_v34_apply,
    prodL0_at, bias0_at, prodR0_at, zero0_at]
  rfl

/-- The second layer of the reference is the specification's layer on the second round of neighbourhood means and the first layer's output. -/
theorem layer1 (x0 x1 : (⟨S50000x128, .f32⟩ : BufTy).Contents (Elt Ideal)) (x2 : (⟨S2x128x128, .f32⟩ : BufTy).Contents (Elt Ideal)) (x3 : (⟨S2x128, .f32⟩ : BufTy).Contents (Elt Ideal)) (x4 : (⟨S2x128x128, .f32⟩ : BufTy).Contents (Elt Ideal)) (x5 : (⟨S2x1600000, .i32⟩ : BufTy).Contents (Elt Ideal)) :
    val_main_v68 (F := Ideal) x0 x1 x2 x3 x4 x5
      = Cert.Sage.layerArr (val_main_v53 (F := Ideal) x0 x1 x2 x3 x4 x5) (val_main_v40 (F := Ideal) x0 x1 x2 x3 x4 x5) (Cert.Sage.wT x2 1) (Cert.Sage.wT x4 1) (Cert.Sage.bRow x3 1) := by
  funext i
  obtain ⟨p, q, rfl⟩ : ∃ (p : Fin 100000) (q : Fin 128), i = ix2 p q := ⟨i 0, i 1, eq_ix2 i⟩
  rw [Cert.Sage.layerArr_apply, ← Cert.Sage.layerAt_bias_first, val_main_v68_apply, val_main_v67_apply, val_main_v62_apply,
    prodL1_at, bias1_at, prodR1_at, zero1_at]
  rfl

end Cert.ReferenceIdeal.RefValue

end
-- ==== Proof.KernelValue.lean ====
/-
  The kernel program's two results as the reference's own last stages of the same launch contents.

  Region 0 leaves one layer (the specification's `layerArr`) of the buffers it reads; those are the reference's
  neighbourhood means, node features, transposed weight slabs and bias row of layer 0, so what it leaves is the
  reference's first activation.  The host operations between the regions turn that into the second neighbourhood
  means exactly as the reference does; region 1 leaves one layer of those, the reference's second activation; the
  results are its two halves.
-/
import proofs.«116046_j6408091206350_1_alg».proof.Proof.KernelHost
import proofs.«116046_j6408091206350_1_alg».proof.Proof.Region0
import proofs.«116046_j6408091206350_1_alg».proof.Proof.Region1
import proofs.«116046_j6408091206350_1_alg».proof.Proof.RefLayer

set_option maxRecDepth 16384

noncomputable section

namespace Cert.KernelIdeal.Whole

open Idealize.ShloMosaic Idealize.ShloMosaic.TcCoe Idealize.ShloMosaic.ValueIdx Idealize.SL.Sem
open Cert.KernelIdeal Cert.KernelIdeal.Gen Cert.KernelIdeal.Host
open Cert.ReferenceIdeal.Read

variable (m : (ℓ : Loc nD τ sig) → Buf (Elt Ideal) ℓ) (ρ : Dev nD → PrngReg)

set_option maxHeartbeats 1000000 in
/-- After region 0 its output array holds the reference's first activation. -/
theorem act0 (c : Dev nD) : W2 m ρ c (Proc.devRef .tc main_v35) = val_main_v40 (F := Ideal) (x0 m c) (x1 m c) (x2 m c) (x3 m c) (x4 m c) (x5 m c) := by
  refine ((W2_arr m ρ c 5).trans (Region0.value (V1 m ρ) c)).trans ?_
  have h27 : V1 m ρ c main_v27 = val_main_v25 (F := Ideal) (x0 m c) (x1 m c) (x5 m c) := W1_v27 m ρ c
  have h0 : V1 m ρ c main_v0 = val_main_v0 (F := Ideal) (x0 m c) (x1 m c) := W1_v0 m ρ c
  have h29 : V1 m ρ c main_v29 = Cert.Sage.wT (x2 m c) 0 := W1_v29 m ρ c
  have h31 : V1 m ρ c main_v31 = Cert.Sage.wT (x4 m c) 0 := W1_v31 m ρ c
  have h34 : V1 m ρ c main_v34 = Cert.Sage.bRow (x3 m c) 0 := W1_v34 m ρ c
  rw [h27, h0, h29, h31, h34]
  exact (Cert.ReferenceIdeal.RefValue.layer0 _ _ _ _ _ _).symm

set_option maxHeartbeats 1000000 in
/-- The second neighbourhood means are the reference's. -/
theorem agg1 (c : Dev nD) : W3 m ρ c (Proc.devRef .tc main_v47) = val_main_v53 (F := Ideal) (x0 m c) (x1 m c) (x2 m c) (x3 m c) (x4 m c) (x5 m c) := by
  rw [W3_v47, act0]
  exact aggOf_act0 _ _ _ _ _ _

set_option maxHeartbeats 1000000 in
/-- After region 1 its output array holds the reference's second activation. -/
theorem act1 (c : Dev nD) : W4 m ρ c (Proc.devRef .tc main_v55) = val_main_v68 (F := Ideal) (x0 m c) (x1 m c) (x2 m c) (x3 m c) (x4 m c) (x5 m c) := by
  refine ((W4_arr m ρ c 5).trans (Region1.value (V3 m ρ) c)).trans ?_
  have h47 : V3 m ρ c main_v47 = val_main_v53 (F := Ideal) (x0 m c) (x1 m c) (x2 m c) (x3 m c) (x4 m c) (x5 m c) := agg1 m ρ c
  have h35 : V3 m ρ c main_v35 = val_main_v40 (F := Ideal) (x0 m c) (x1 m c) (x2 m c) (x3 m c) (x4 m c) (x5 m c) := (W3_v35 m ρ c).trans (act0 m ρ c)
  have h49 : V3 m ρ c main_v49 = Cert.Sage.wT (x2 m c) 1 := W3_v49 m ρ c
  have h51 : V3 m ρ c main_v51 = Cert.Sage.wT (x4 m c) 1 := W3_v51 m ρ c
  have h54 : V3 m ρ c main_v54 = Cert.Sage.bRow (x3 m c) 1 := W3_v54 m ρ c
  rw [h47, h35, h49, h51, h54]
  exact (Cert.ReferenceIdeal.RefValue.layer1 _ _ _ _ _ _).symm

set_option maxHeartbeats 1000000 in
/-- The first result: the upper half of the second activation. -/
theorem out0 (c : Dev nD) : W5 m ρ c (Proc.devRef .tc main_v56) = val_main_v69 (F := Ideal) (x0 m c) (x1 m c) (x2 m c) (x3 m c) (x4 m c) (x5 m c) := by
  rw [W5_v56, act1]
  rfl

set_option maxHeartbeats 1000000 in
/-- The second result: the lower half. -/
theorem out1 (c : Dev nD) : W5 m ρ c (Proc.devRef .tc main_v57) = val_main_v70 (F := Ideal) (x0 m c) (x1 m c) (x2 m c) (x3 m c) (x4 m c) (x5 m c) := by
  rw [W5_v57, act1]
  rfl

end Cert.KernelIdeal.Whole

end
-- ==== Proof.lean ====
/-
  Two stacked graph-convolution layers on 100000 nodes with 128 features: per layer, each node's features are averaged
  over its incoming edges (rows gathered at the edges' sources, summed into the edges' targets, divided by the
  in-degree clipped below at one), and the new features are `max (A · Wlᵀ + X · Wrᵀ + b, 0)`.  The kernel program does
  the averaging with host operations and the dense update in a pipelined kernel over blocks of 5000 rows (two
  128-column products accumulated from zero, then the bias, then the clip); the reference does everything with host
  operations, adding the bias between the two products.

  Over the extended reals the two agree entry by entry: the averaging is the same operations on both sides; a block of
  rows of the dense update is the update of that block of rows; the kernel's pre-transposed weight slab and the
  reference's transposed slab are one matrix; and the three summands of an entry add up to the same number in either
  order, addition of extended reals being commutative and associative.  No input needs to be finite for any of this.

  The three frames: the two kernel programs' are the generated ones; the reference's is its generated run with the
  results dropped.  The ideal pass rewrote nothing, so the idealization claim is trivial.  The value claim puts the
  kernel program's run, its results named at the fold through its host operations and regions (`Results.run`,
  `Whole.out0`, `Whole.out1`), beside the reference's generated run and read stages.
-/
import proofs.«116046_j6408091206350_1_alg».proof.Defs
import proofs.«116046_j6408091206350_1_alg».proof.Proof.Gen.Kernel
import proofs.«116046_j6408091206350_1_alg».proof.Proof.Gen.Kernel.Frame
import proofs.«116046_j6408091206350_1_alg».proof.Proof.Gen.KernelIdeal
import proofs.«116046_j6408091206350_1_alg».proof.Proof.Gen.KernelIdeal.Frame
import proofs.«116046_j6408091206350_1_alg».proof.Proof.Gen.ReferenceIdeal
import proofs.«116046_j6408091206350_1_alg».proof.Proof.Gen.ReferenceIdeal.Run
import proofs.«116046_j6408091206350_1_alg».proof.Proof.Gen.ReferenceIdeal.Read
import proofs.«116046_j6408091206350_1_alg».proof.Proof.Gen.Pre_finite_inputs
import proofs.«116046_j6408091206350_1_alg».proof.Proof.KernelRun
import proofs.«116046_j6408091206350_1_alg».proof.Proof.KernelValue

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

set_option maxHeartbeats 1000000 in
/-- Both programs end with the reference's last two stages of the (agreeing) launch contents in their results. -/
theorem algebraic : Cert.algebraic_KernelIdeal_ReferenceIdeal := by
  intro m ρ m' ρ' _ hagree
  refine ⟨fun c => Cert.ReferenceIdeal.Read.val_main_v69 (F := Ideal)
      (Cert.KernelIdeal.Host.x0 m c) (Cert.KernelIdeal.Host.x1 m c) (Cert.KernelIdeal.Host.x2 m c)
      (Cert.KernelIdeal.Host.x3 m c) (Cert.KernelIdeal.Host.x4 m c) (Cert.KernelIdeal.Host.x5 m c),
    fun c => Cert.ReferenceIdeal.Read.val_main_v70 (F := Ideal)
      (Cert.KernelIdeal.Host.x0 m c) (Cert.KernelIdeal.Host.x1 m c) (Cert.KernelIdeal.Host.x2 m c)
      (Cert.KernelIdeal.Host.x3 m c) (Cert.KernelIdeal.Host.x4 m c) (Cert.KernelIdeal.Host.x5 m c), ?_, ?_⟩
  · exact (θ_run Cert.KernelIdeal.defs _ _).mono
      (fun _ h c => ⟨(h c).1.trans (Cert.KernelIdeal.Whole.out0 m ρ c), (h c).2.1.trans (Cert.KernelIdeal.Whole.out1 m ρ c), (h c).2.2⟩)
      (Cert.KernelIdeal.Results.run (F := Ideal) m ρ)
  · refine (θ_run Cert.ReferenceIdeal.defs _ _).mono (fun _ h c => ⟨?_, ?_, (h c).2.2⟩)
      (Cert.ReferenceIdeal.Value.run (F := Ideal) m' ρ')
    · rw [(h c).1, Cert.ReferenceIdeal.Read.val_main_v69_eq, (hagree c).1, (hagree c).2.1, (hagree c).2.2.1, (hagree c).2.2.2.1,
        (hagree c).2.2.2.2.1, (hagree c).2.2.2.2.2]
    · rw [(h c).2.1, Cert.ReferenceIdeal.Read.val_main_v70_eq, (hagree c).1, (hagree c).2.1, (hagree c).2.2.1, (hagree c).2.2.2.1,
        (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
